-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x16x4 : Shape := ⟨3, ![10000, 16, 4]⟩
abbrev S4x16x16 : Shape := ⟨3, ![4, 16, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x16x4 : S_.BroadcastsInDim S10000x16x4 (![] : Fin 0 → Fin S10000x16x4.rank)
  reducesTo_S10000x16x4_S_d0_1_2 : S10000x16x4.ReducesTo [0, 1, 2] S_
  bcast_S_S4x16x16 : S_.BroadcastsInDim S4x16x16 (![] : Fin 0 → Fin S4x16x16.rank)
  reducesTo_S4x16x16_S_d0_1_2 : S4x16x16.ReducesTo [0, 1, 2] S_

variable [Facts]

def fn {F : FTy → Type} [FloatOps F] (main_arg0 : FVec F S10000x10000 .f32) (main_arg1 : FVec F S10000x16x4 .f32) (main_arg2 : FVec F S4x16x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x16x4 .f32 := Host.absf main_arg1
  let main_cst_0 : FVec F S_ .f32 := constant S_ .f32 0x7F800000#32
  let main_v5 : FVec F S10000x16x4 .f32 := broadcastInDim S10000x16x4 ![] bcast_S_S10000x16x4 main_cst_0
  let main_v6 : IVec S10000x16x4 1 := cmpf .olt main_v4 main_v5
  let main_c_1 : IVec S_ 1 := constantI S_ 1 1#1
  let main_v7 : IVec S_ 1 := (fun x v => Host.reduce IntOp.andi x v reducesTo_S10000x16x4_S_d0_1_2 h_S_) main_v6 main_c_1
  let main_v8 : IVec S_ 1 := andi main_v3 main_v7
  let main_v9 : FVec F S4x16x16 .f32 := Host.absf main_arg2
  let main_cst_2 : FVec F S_ .f32 := constant S_ .f32 0x7F800000#32
  let main_v10 : FVec F S4x16x16 .f32 := broadcastInDim S4x16x16 ![] bcast_S_S4x16x16 main_cst_2
  let main_v11 : IVec S4x16x16 1 := cmpf .olt main_v9 main_v10
  let main_c_3 : IVec S_ 1 := constantI S_ 1 1#1
  let main_v12 : IVec S_ 1 := (fun x v => Host.reduce IntOp.andi x v reducesTo_S4x16x16_S_d0_1_2 h_S_) main_v11 main_c_3
  let main_v13 : IVec S_ 1 := andi main_v8 main_v12
  main_v13
-- ==== Kernel.lean ====
abbrev S10000x10000 : Shape := ⟨2, ![10000, 10000]⟩
abbrev S10000x16x4 : Shape := ⟨3, ![10000, 16, 4]⟩
abbrev S4x16x16 : Shape := ⟨3, ![4, 16, 16]⟩
abbrev S10000x64 : Shape := ⟨2, ![10000, 64]⟩
abbrev S16x4x16 : Shape := ⟨3, ![16, 4, 16]⟩
abbrev S64x16 : Shape := ⟨2, ![64, 16]⟩
abbrev S5000x10000 : Shape := ⟨2, ![5000, 10000]⟩
abbrev S5000x16 : Shape := ⟨2, ![5000, 16]⟩
abbrev S200x10000 : Shape := ⟨2, ![200, 10000]⟩
abbrev S200x16 : Shape := ⟨2, ![200, 16]⟩
abbrev S10000x16 : Shape := ⟨2, ![10000, 16]⟩

abbrev nBuf : Space → Nat
  | .hbm => 11
  | .vmem => 11
  | .smem => 0
  | _ => 0

abbrev bufTy : (tb : Table) → Fin (tcTables nBuf tb) → BufTy
  | .hbm, ⟨0, _⟩ => ⟨S10000x10000, .f32⟩
  | .hbm, ⟨1, _⟩ => ⟨S10000x16x4, .f32⟩
  | .hbm, ⟨2, _⟩ => ⟨S4x16x16, .f32⟩
  | .hbm, ⟨3, _⟩ => ⟨S10000x64, .f32⟩
  | .hbm, ⟨4, _⟩ => ⟨S16x4x16, .f32⟩
  | .hbm, ⟨5, _⟩ => ⟨S64x16, .f32⟩
  | .hbm, ⟨6, _⟩ => ⟨S5000x10000, .f32⟩
  | .hbm, ⟨7, _⟩ => ⟨S5000x10000, .f32⟩
  | .hbm, ⟨8, _⟩ => ⟨S5000x16, .f32⟩
  | .hbm, ⟨9, _⟩ => ⟨S5000x16, .f32⟩
  | .hbm, ⟨10, _⟩ => ⟨S10000x16, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x64, .f32⟩
  | .local _ .vmem, ⟨5, _⟩ => ⟨S64x16, .f32⟩
  | .local _ .vmem, ⟨6, _⟩ => ⟨S200x16, .f32⟩
  | .local _ .vmem, ⟨7, _⟩ => ⟨S200x16, .f32⟩
  | .local _ .vmem, ⟨8, _⟩ => ⟨S200x16, .f32⟩
  | .local _ .vmem, ⟨9, _⟩ => ⟨S200x16, .f32⟩
  | .local _ .vmem, ⟨10, _⟩ => ⟨S10000x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S10000x16x4_S10000x64 : S10000x16x4.ShapeCasts S10000x64
  transposes_S4x16x16_S16x4x16_1_0_2 : S4x16x16.Transposes [1, 0, 2] S16x4x16
  shapeCasts_S16x4x16_S64x16 : S16x4x16.ShapeCasts S64x16
  slices_S10000x10000_S5000x10000_0_0 : S10000x10000.Slices ![0, 0] S5000x10000
  slices_S10000x10000_S5000x10000_5000_0 : S10000x10000.Slices ![5000, 0] S5000x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  inb_S200x16_S200x16_0_0 : ∀ a, (![0, 0] : Fin 2 → Nat) a + S200x16.size a ≤ S200x16.size a
  h_S200x16 : 0 < S200x16.numel
  concatenates_S5000x16_S5000x16_S10000x16_d0 : Shape.Concatenates [S5000x16, S5000x16] S10000x16 0
  dot_S10000x64_S64x16_S10000x16_1_0_0_1_n_n_wf : DotDims.WF S10000x64 S64x16 S10000x16 [1] [0] [0] [1] [] []
  dot_S200x10000_S10000x16_S200x16_1_0_0_1_n_n_wf : DotDims.WF S200x10000 S10000x16 S200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S5000x10000.size a
  hwx0_0 : ∀ i : grid0.Coords, EltTy.bits .f32 = 32 ∨ (Rect.block (s := S5000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S5000x10000.size a
  hwx0_1 : ∀ i : grid0.Coords, EltTy.bits .f32 = 32 ∨ (Rect.block (s := S5000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S10000x64.size a
  hwx0_2 : ∀ i : grid0.Coords, EltTy.bits .f32 = 32 ∨ (Rect.block (s := S10000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x16.size a ≤ S5000x16.size a
  hwx0_4 : ∀ i : grid0.Coords, EltTy.bits .f32 = 32 ∨ (Rect.block (s := S5000x16) S200x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x16.size a ≤ S5000x16.size a
  hwx0_5 : ∀ i : grid0.Coords, EltTy.bits .f32 = 32 ∨ (Rect.block (s := S5000x16) S200x16.size (cc0_transform_5 i) (hinb0_5 i)).WholeWords (EltTy.packing .f32)

variable [Facts₀]

def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_v3) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S200x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S200x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x16x4 : Shape := ⟨3, ![10000, 16, 4]⟩
abbrev S4x16x16 : Shape := ⟨3, ![4, 16, 16]⟩
abbrev S64x16 : Shape := ⟨2, ![64, 16]⟩
abbrev S10000x16x1 : Shape := ⟨3, ![10000, 16, 1]⟩
abbrev S10000x16 : Shape := ⟨2, ![10000, 16]⟩
abbrev S10000x64 : Shape := ⟨2, ![10000, 64]⟩

abbrev nBuf : Space → Nat
  | .hbm => 18
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x16x4, .f32⟩
  | .hbm, ⟨2, _⟩ => ⟨S4x16x16, .f32⟩
  | .hbm, ⟨3, _⟩ => ⟨S64x16, .f32⟩
  | .hbm, ⟨4, _⟩ => ⟨S10000x16x1, .f32⟩
  | .hbm, ⟨5, _⟩ => ⟨S10000x16, .f32⟩
  | .hbm, ⟨6, _⟩ => ⟨S10000x16, .f32⟩
  | .hbm, ⟨7, _⟩ => ⟨S10000x16x1, .f32⟩
  | .hbm, ⟨8, _⟩ => ⟨S10000x16, .f32⟩
  | .hbm, ⟨9, _⟩ => ⟨S10000x16, .f32⟩
  | .hbm, ⟨10, _⟩ => ⟨S10000x16x1, .f32⟩
  | .hbm, ⟨11, _⟩ => ⟨S10000x16, .f32⟩
  | .hbm, ⟨12, _⟩ => ⟨S10000x16, .f32⟩
  | .hbm, ⟨13, _⟩ => ⟨S10000x16x1, .f32⟩
  | .hbm, ⟨14, _⟩ => ⟨S10000x16, .f32⟩
  | .hbm, ⟨15, _⟩ => ⟨S10000x16, .f32⟩
  | .hbm, ⟨16, _⟩ => ⟨S10000x64, .f32⟩
  | .hbm, ⟨17, _⟩ => ⟨S10000x16, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  shapeCasts_S4x16x16_S64x16 : S4x16x16.ShapeCasts S64x16
  slices_S10000x16x4_S10000x16x1_0_0_0 : S10000x16x4.Slices ![0, 0, 0] S10000x16x1
  shapeCasts_S10000x16x1_S10000x16 : S10000x16x1.ShapeCasts S10000x16
  slices_S10000x16x4_S10000x16x1_0_0_1 : S10000x16x4.Slices ![0, 0, 1] S10000x16x1
  slices_S10000x16x4_S10000x16x1_0_0_2 : S10000x16x4.Slices ![0, 0, 2] S10000x16x1
  slices_S10000x16x4_S10000x16x1_0_0_3 : S10000x16x4.Slices ![0, 0, 3] S10000x16x1
  concatenates_S10000x16_S10000x16_S10000x16_S10000x16_S10000x64_d1 : Shape.Concatenates [S10000x16, S10000x16, S10000x16, S10000x16] S10000x64 1
  dot_S10000x10000_S10000x16_S10000x16_1_0_0_1_n_n_wf : DotDims.WF S10000x10000 S10000x16 S10000x16 [1] [0] [0] [1] [] []
  dot_S10000x64_S64x16_S10000x16_1_0_0_1_n_n_wf : DotDims.WF S10000x64 S64x16 S10000x16 [1] [0] [0] [1] [] []

variable [Facts₀]

def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

class Facts : Prop extends Facts₀ where

variable [Facts]
-- ==== Proof.Pieces.lean ====
/-
  What one grid point's body leaves behind, read off the stores it makes.

  The body keeps a [10000, 16] scratch B across the grid. At the first point it stores into it the product of
  the flattened features (its third operand, whole) with the permuted weights (its fourth operand, whole) and
  reads it back; at every later point it only reads what the point before left. Then at every point it stores
  into its two output blocks the products of its two [200, 10000] row slabs of the matrix with that B.
  Each buffer is written by ONE store through its whole extent, so what the buffer holds afterwards is that
  store's payload, and a load through the whole extent reads the contents back. These hold for any number format.
-/
import proofs.«130375_g5995774345542_cont_9to1_m_477_7_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 buffer, however spelt. -/
theorem hz : (![0, 0] : Fin 2 → Nat) = fun _ => 0 := funext fun a => by fin_cases a <;> rfl

/-- First point: the scratch ends at the product of the features with the weights. -/
theorem scratch_first (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x64 .f32) (harg3 : arg3.IsWhole) (arg4 : Memref sig .tc .vmem S64x16 .f32) (harg4 : arg4.IsWhole) (arg5 : Memref sig .tc .vmem S200x16 .f32) (harg5 : arg5.IsWhole) (arg6 : Memref sig .tc .vmem S200x16 .f32) (harg6 : arg6.IsWhole) (arg7 : Memref sig .tc .vmem S10000x16 .f32) (harg7 : arg7.IsWhole) (hc0 : cond0_0 i) (x0 : Vec F S200x10000 .f32) (x1 : Vec F S200x10000 .f32) (x2 : Vec F S10000x64 .f32) (x3 : Vec F S64x16 .f32) :
    sout0_A_0 c i arg1 harg1 arg2 harg2 arg3 harg3 arg4 harg4 arg5 harg5 arg6 harg6 arg7 harg7 hc0 x0 x1 x2 x3 = k0_pay1 x2 x3 := by
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg3.read_unread, harg4.read_unread, View.ld_unit_zero (S := S10000x64) hz,
    View.ld_unit_zero (S := S64x16) hz]

/-- First point: the first output block ends at the first slab times the scratch just computed. -/
theorem top_first (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x64 .f32) (harg3 : arg3.IsWhole) (arg4 : Memref sig .tc .vmem S64x16 .f32) (harg4 : arg4.IsWhole) (arg5 : Memref sig .tc .vmem S200x16 .f32) (harg5 : arg5.IsWhole) (arg6 : Memref sig .tc .vmem S200x16 .f32) (harg6 : arg6.IsWhole) (arg7 : Memref sig .tc .vmem S10000x16 .f32) (harg7 : arg7.IsWhole) (hc0 : cond0_0 i) (x0 : Vec F S200x10000 .f32) (x1 : Vec F S200x10000 .f32) (x2 : Vec F S10000x64 .f32) (x3 : Vec F S64x16 .f32) :
    out0_A_4 c i arg1 harg1 arg2 harg2 arg3 harg3 arg4 harg4 arg5 harg5 arg6 harg6 arg7 harg7 hc0 x0 x1 x2 x3 = k0_pay2 (k0_pay1 x2 x3) x0 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg1.read_unread, harg3.read_unread, harg4.read_unread,
    View.readCov_unit_zero (S := S10000x16) _ hz, View.ld_unit_zero (S := S200x10000) hz,
    View.ld_unit_zero (S := S10000x64) hz, View.ld_unit_zero (S := S64x16) hz]

/-- First point: the second output block ends at the second slab times the scratch just computed. -/
theorem bottom_first (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x64 .f32) (harg3 : arg3.IsWhole) (arg4 : Memref sig .tc .vmem S64x16 .f32) (harg4 : arg4.IsWhole) (arg5 : Memref sig .tc .vmem S200x16 .f32) (harg5 : arg5.IsWhole) (arg6 : Memref sig .tc .vmem S200x16 .f32) (harg6 : arg6.IsWhole) (arg7 : Memref sig .tc .vmem S10000x16 .f32) (harg7 : arg7.IsWhole) (hc0 : cond0_0 i) (x0 : Vec F S200x10000 .f32) (x1 : Vec F S200x10000 .f32) (x2 : Vec F S10000x64 .f32) (x3 : Vec F S64x16 .f32) :
    out0_A_5 c i arg1 harg1 arg2 harg2 arg3 harg3 arg4 harg4 arg5 harg5 arg6 harg6 arg7 harg7 hc0 x0 x1 x2 x3 = k0_pay3 (k0_pay1 x2 x3) x1 := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg3.read_unread, harg4.read_unread,
    View.readCov_unit_zero (S := S10000x16) _ hz, View.ld_unit_zero (S := S200x10000) hz,
    View.ld_unit_zero (S := S10000x64) hz, View.ld_unit_zero (S := S64x16) hz]

/-- A later point: the first output block ends at the first slab times the scratch the point before left. -/
theorem top_later (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x64 .f32) (harg3 : arg3.IsWhole) (arg4 : Memref sig .tc .vmem S64x16 .f32) (harg4 : arg4.IsWhole) (arg5 : Memref sig .tc .vmem S200x16 .f32) (harg5 : arg5.IsWhole) (arg6 : Memref sig .tc .vmem S200x16 .f32) (harg6 : arg6.IsWhole) (arg7 : Memref sig .tc .vmem S10000x16 .f32) (harg7 : arg7.IsWhole) (hc0 : ¬cond0_0 i) (x0 : Vec F S200x10000 .f32) (x1 : Vec F S200x10000 .f32) (x2 : Vec F S10000x64 .f32) (x3 : Vec F S64x16 .f32) (xs0 : Vec F S10000x16 .f32) :
    out0_B_4 c i arg1 harg1 arg2 harg2 arg3 harg3 arg4 harg4 arg5 harg5 arg6 harg6 arg7 harg7 hc0 x0 x1 x2 x3 xs0 = k0_pay2 xs0 x0 := by
  unfold out0_B_4
  rw [View.read_writes_eq_canon _ _ _ (cover0_B_4 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg1.read_unread, harg7.read_unread, View.ld_unit_zero (S := S200x10000) hz,
    View.ld_unit_zero (S := S10000x16) hz]

/-- A later point: the second output block ends at the second slab times the scratch the point before left. -/
theorem bottom_later (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x64 .f32) (harg3 : arg3.IsWhole) (arg4 : Memref sig .tc .vmem S64x16 .f32) (harg4 : arg4.IsWhole) (arg5 : Memref sig .tc .vmem S200x16 .f32) (harg5 : arg5.IsWhole) (arg6 : Memref sig .tc .vmem S200x16 .f32) (harg6 : arg6.IsWhole) (arg7 : Memref sig .tc .vmem S10000x16 .f32) (harg7 : arg7.IsWhole) (hc0 : ¬cond0_0 i) (x0 : Vec F S200x10000 .f32) (x1 : Vec F S200x10000 .f32) (x2 : Vec F S10000x64 .f32) (x3 : Vec F S64x16 .f32) (xs0 : Vec F S10000x16 .f32) :
    out0_B_5 c i arg1 harg1 arg2 harg2 arg3 harg3 arg4 harg4 arg5 harg5 arg6 harg6 arg7 harg7 hc0 x0 x1 x2 x3 xs0 = k0_pay3 xs0 x1 := by
  unfold out0_B_5
  rw [View.read_writes_eq_canon _ _ _ (cover0_B_5 c i arg1 harg1 arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg2.read_unread, harg7.read_unread, View.ld_unit_zero (S := S200x10000) hz,
    View.ld_unit_zero (S := S10000x16) hz]

/-- A later point stores nothing into the scratch. -/
theorem scratch_later (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x64 .f32) (harg3 : arg3.IsWhole) (arg4 : Memref sig .tc .vmem S64x16 .f32) (harg4 : arg4.IsWhole) (arg5 : Memref sig .tc .vmem S200x16 .f32) (harg5 : arg5.IsWhole) (arg6 : Memref sig .tc .vmem S200x16 .f32) (harg6 : arg6.IsWhole) (arg7 : Memref sig .tc .vmem S10000x16 .f32) (harg7 : arg7.IsWhole) (hc0 : ¬cond0_0 i) (x0 : Vec F S200x10000 .f32) (x1 : Vec F S200x10000 .f32) (x2 : Vec F S10000x64 .f32) (x3 : Vec F S64x16 .f32) (xs0 : Vec F S10000x16 .f32) :
    sout0_B_0 c i arg1 harg1 arg2 harg2 arg3 harg3 arg4 harg4 arg5 harg5 arg6 harg6 arg7 harg7 hc0 x0 x1 x2 x3 xs0 = xs0 := rfl

end Cert.KernelIdeal.Pieces

end
-- ==== Proof.Carried.lean ====
/-
  What the scratch and the two output blocks hold after each grid point.

  The scratch B is written once, at the first point, with the product of the features and the weights as that
  point finds them; no later point stores into it. So after EVERY point the scratch holds that one product, and
  the two output blocks hold the point's own two row slabs of the matrix times it. By induction on the point.
-/
import proofs.«130375_g5995774345542_cont_9to1_m_477_7_alg».proof.Proof.Pieces

noncomputable section

open Idealize.ShloMosaic Idealize.ShloMosaic.TcCoe Idealize.SL.Sem

namespace Cert.KernelIdeal.Carried

open Cert.KernelIdeal Cert.KernelIdeal.Gen

variable {F : FTy → Type} [FloatOps F]
variable (m : (ℓ : Loc nD τ sig) → Buf (Elt F) ℓ)

/-- The first grid point. -/
abbrev first : Fin cfg0.N := ⟨0, by rw [show cfg0.N = 25 from N_0]; decide⟩

/-- Point t's row slab of the upper half of the matrix. -/
abbrev slabTop (c : Dev nD) (t : Fin cfg0.N) : Vec F S200x10000 .f32 := iblk m c 0 t
/-- Point t's row slab of the lower half of the matrix. -/
abbrev slabBot (c : Dev nD) (t : Fin cfg0.N) : Vec F S200x10000 .f32 := iblk m c 1 t
/-- The flattened features, as the first point finds them. -/
abbrev feats (c : Dev nD) : Vec F S10000x64 .f32 := iblk m c 2 first
/-- The permuted weights, as the first point finds them. -/
abbrev wts (c : Dev nD) : Vec F S64x16 .f32 := iblk m c 3 first

/-- The product the first point leaves in the scratch. -/
abbrev mixedFeats (c : Dev nD) : Vec F S10000x16 .f32 := k0_pay1 (feats m c) (wts m c)

/-- After every point: the outputs at the point's slabs times the first point's product, the scratch at that product. -/
theorem after_point (c : Dev nD) : ∀ (n : ℕ) (h : n < cfg0.N),
    outsAt0 m c n h = (k0_pay2 (mixedFeats m c) (slabTop m c ⟨n, h⟩), k0_pay3 (mixedFeats m c) (slabBot m c ⟨n, h⟩), mixedFeats m c)
  | 0, h => by
    rw [outsAt0_A m c ⟨0, h⟩ rfl]
    exact congrArg₂ Prod.mk
      (Pieces.top_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ (iblk m c 0 ⟨0, h⟩) (iblk m c 1 ⟨0, h⟩) (iblk m c 2 ⟨0, h⟩) (iblk m c 3 ⟨0, h⟩))
      (congrArg₂ Prod.mk
        (Pieces.bottom_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ (iblk m c 0 ⟨0, h⟩) (iblk m c 1 ⟨0, h⟩) (iblk m c 2 ⟨0, h⟩) (iblk m c 3 ⟨0, h⟩))
        (Pieces.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ (iblk m c 0 ⟨0, h⟩) (iblk m c 1 ⟨0, h⟩) (iblk m c 2 ⟨0, h⟩) (iblk m c 3 ⟨0, h⟩)))
  | n + 1, h => by
    have hN : cfg0.N = 25 := N_0
    have hB : ¬(⟨n + 1, h⟩ : Fin cfg0.N).val % 25 = 0 := by dsimp only; omega
    have ih := after_point c n (Nat.lt_of_succ_lt h)
    have ih3 : (outsAt0 m c ((⟨n + 1, h⟩ : Fin cfg0.N).val - 1)
        (Nat.lt_of_le_of_lt (Nat.sub_le _ _) (⟨n + 1, h⟩ : Fin cfg0.N).isLt)).2.2 = mixedFeats m c := by
      show (outsAt0 m c n _).2.2 = _
      rw [ih]
    rw [outsAt0_B m c ⟨n + 1, h⟩ hB, ih3]
    exact congrArg₂ Prod.mk
      (Pieces.top_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ (iblk m c 0 ⟨n + 1, h⟩) (iblk m c 1 ⟨n + 1, h⟩) (iblk m c 2 ⟨n + 1, h⟩) (iblk m c 3 ⟨n + 1, h⟩) (mixedFeats m c))
      (congrArg₂ Prod.mk
        (Pieces.bottom_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ (iblk m c 0 ⟨n + 1, h⟩) (iblk m c 1 ⟨n + 1, h⟩) (iblk m c 2 ⟨n + 1, h⟩) (iblk m c 3 ⟨n + 1, h⟩) (mixedFeats m c))
        (Pieces.scratch_later c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ (iblk m c 0 ⟨n + 1, h⟩) (iblk m c 1 ⟨n + 1, h⟩) (iblk m c 2 ⟨n + 1, h⟩) (iblk m c 3 ⟨n + 1, h⟩) (mixedFeats m c)))

end Cert.KernelIdeal.Carried

end
-- ==== Proof.MatLaw.lean ====
/-
  The algebra that joins the two programs.

  Write a for the N x N matrix, x for the N x 16 x 4 features and w for the 4 x 16 x 16 weights.

  One side contracts the features with the weights first: with the 64 columns j of the flattened features
  split as j = 4 i + r (i < 16 the feature, r < 4 the relation),
      B[k, o]   = sum_j x[k, j / 4, j % 4] * w[j % 4, j / 4, o],
      out[n, o] = sum_k a[n, k] * B[k, o].
  The other side contracts a with each relation's feature slab first and the weights last: with the 64
  columns j of the joined slabs split as j = 16 r + i,
      tmp[n, j] = sum_k a[n, k] * x[k, j % 16, j / 16],
      out[n, o] = sum_j tmp[n, j] * w[j / 16, j % 16, o].
  Both are the triple sum over (k, i, r) of a[n, k] * x[k, i, r] * w[r, i, o]; exchanging the sums and moving
  a[n, k] across the inner sum is distributivity, which on the extended reals holds for finite entries only.
  So the law is proved for entries that are real numbers, by computing in the reals.
-/
import Idealize.ShloMosaic.PureOps.Ideal

noncomputable section

namespace Cert.Rgcn

open Finset

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert _ _ h ih => rw [Finset.sum_insert h, Finset.sum_insert h, EReal.coe_add, ih]

/-! ## The two ways of splitting a column index below 64 -/

/-- The feature of column j = 4 i + r. -/
abbrev hi4 (j : Fin 64) : Fin 16 := ⟨j.val / 4, by have := j.isLt; omega⟩
/-- The relation of column j = 4 i + r. -/
abbrev lo4 (j : Fin 64) : Fin 4 := ⟨j.val % 4, by omega⟩
/-- The relation of column j = 16 r + i. -/
abbrev hi16 (j : Fin 64) : Fin 4 := ⟨j.val / 16, by have := j.isLt; omega⟩
/-- The feature of column j = 16 r + i. -/
abbrev lo16 (j : Fin 64) : Fin 16 := ⟨j.val % 16, by omega⟩

/-- Columns j = 4 i + r are the pairs (i, r). -/
def split4 : Fin 64 ≃ Fin 16 × Fin 4 where
  toFun j := (hi4 j, lo4 j)
  invFun p := ⟨p.1.val * 4 + p.2.val, by have := p.1.isLt; have := p.2.isLt; omega⟩
  left_inv j := Fin.ext (by show j.val / 4 * 4 + j.val % 4 = j.val; omega)
  right_inv p := by
    have h1 := p.1.isLt; have h2 := p.2.isLt
    refine Prod.ext (Fin.ext ?_) (Fin.ext ?_)
    · show (p.1.val * 4 + p.2.val) / 4 = p.1.val; omega
    · show (p.1.val * 4 + p.2.val) % 4 = p.2.val; omega

/-- Columns j = 16 r + i are the pairs (r, i). -/
def split16 : Fin 64 ≃ Fin 4 × Fin 16 where
  toFun j := (hi16 j, lo16 j)
  invFun p := ⟨p.1.val * 16 + p.2.val, by have := p.1.isLt; have := p.2.isLt; omega⟩
  left_inv j := Fin.ext (by show j.val / 16 * 16 + j.val % 16 = j.val; omega)
  right_inv p := by
    have h1 := p.1.isLt; have h2 := p.2.isLt
    refine Prod.ext (Fin.ext ?_) (Fin.ext ?_)
    · show (p.1.val * 16 + p.2.val) / 16 = p.1.val; omega
    · show (p.1.val * 16 + p.2.val) % 16 = p.2.val; omega

/-- A sum over the columns j = 4 i + r is the double sum over features and relations. -/
theorem sum_split4 {M : Type} [AddCommMonoid M] (f : Fin 16 → Fin 4 → M) :
    ∑ j : Fin 64, f (hi4 j) (lo4 j) = ∑ i : Fin 16, ∑ r : Fin 4, f i r := by
  rw [← Fintype.sum_prod_type' f, ← Equiv.sum_comp split4 (fun p : Fin 16 × Fin 4 => f p.1 p.2)]
  rfl

/-- A sum over the columns j = 16 r + i is the double sum over relations and features. -/
theorem sum_split16 {M : Type} [AddCommMonoid M] (g : Fin 4 → Fin 16 → M) :
    ∑ j : Fin 64, g (hi16 j) (lo16 j) = ∑ r : Fin 4, ∑ i : Fin 16, g r i := by
  rw [← Fintype.sum_prod_type' g, ← Equiv.sum_comp split16 (fun p : Fin 4 × Fin 16 => g p.1 p.2)]
  rfl

/-! ## The two contraction orders -/

section
variable {N : Nat} (a : Fin N → Fin N → EReal) (x : Fin N → Fin 16 → Fin 4 → EReal) (w : Fin 4 → Fin 16 → Fin 16 → EReal)

/-- Features against weights first (columns j = 4 i + r). -/
def mixed (k : Fin N) (o : Fin 16) : EReal := ∑ j : Fin 64, x k (hi4 j) (lo4 j) * w (lo4 j) (hi4 j) o

/-- The matrix against the mixed features. -/
def mixFirst (n : Fin N) (o : Fin 16) : EReal := ∑ k : Fin N, a n k * mixed x w k o

/-- The matrix against each relation's slab (columns j = 16 r + i). -/
def slabs (n : Fin N) (j : Fin 64) : EReal := ∑ k : Fin N, a n k * x k (lo16 j) (hi16 j)

/-- The joined slabs against the weights last. -/
def mixLast (n : Fin N) (o : Fin 16) : EReal := ∑ j : Fin 64, slabs a x n j * w (hi16 j) (lo16 j) o

/-- On real entries the two orders give the same number: both are the sum over (k, i, r) of a * x * w. -/
theorem mixFirst_eq_mixLast (ha : ∀ n k, ∃ r : ℝ, a n k = r) (hx : ∀ k i r, ∃ s : ℝ, x k i r = s)
    (hw : ∀ r i o, ∃ s : ℝ, w r i o = s) (n : Fin N) (o : Fin 16) : mixFirst a x w n o = mixLast a x w n o := by
  choose a' ha' using ha
  choose x' hx' using hx
  choose w' hw' using hw
  have hK : ∀ k, mixed x w k o = ∑ i : Fin 16, ∑ r : Fin 4, x k i r * w r i o :=
    fun k => sum_split4 (fun i r => x k i r * w r i o)
  have hR : mixLast a x w n o = ∑ r : Fin 4, ∑ i : Fin 16, (∑ k : Fin N, a n k * x k i r) * w r i o :=
    sum_split16 (fun r i => (∑ k : Fin N, a n k * x k i r) * w r i o)
  rw [hR]
  unfold mixFirst
  simp only [hK, ha', hx', hw', ← EReal.coe_mul, ← coe_sum]
  refine congrArg _ ?_
  simp only [Finset.mul_sum, Finset.sum_mul]
  calc ∑ k : Fin N, ∑ i : Fin 16, ∑ r : Fin 4, a' n k * (x' k i r * w' r i o)
      = ∑ i : Fin 16, ∑ k : Fin N, ∑ r : Fin 4, a' n k * (x' k i r * w' r i o) := Finset.sum_comm
    _ = ∑ i : Fin 16, ∑ r : Fin 4, ∑ k : Fin N, a' n k * (x' k i r * w' r i o) :=
        Finset.sum_congr rfl fun i _ => Finset.sum_comm
    _ = ∑ r : Fin 4, ∑ i : Fin 16, ∑ k : Fin N, a' n k * (x' k i r * w' r i o) := Finset.sum_comm
    _ = ∑ r : Fin 4, ∑ i : Fin 16, ∑ k : Fin N, a' n k * x' k i r * w' r i o := by simp only [mul_assoc]

end

end Cert.Rgcn

end
-- ==== Proof.Blocks.lean ====
/-
  What the region finds in its arrays, and each window's block at a point, read at an index.

  Before the region the host flattens the features x[k, i, r] to [10000, 64] with column j = 4 i + r, moves the
  weights' relation axis inside, w[r, i, o] -> [i, r, o], and flattens that to [64, 16] with row j = 4 i + r, and
  cuts the matrix into its upper and lower 5000 rows. The first two windows step through the two halves 200 rows
  at a time (point t reads rows 200 t .. 200 t + 199 of its half); the features' and the weights' windows are their
  whole arrays at every point; the two output windows step through [5000, 16] the same way.
-/
import proofs.«130375_g5995774345542_cont_9to1_m_477_7_alg».proof.Proof.Carried
import proofs.«130375_g5995774345542_cont_9to1_m_477_7_alg».proof.Proof.MatLaw
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Cert.KernelIdeal.Carried Idealize.ShloMosaic.ValueIdx Cert.Rgcn

variable {F : FTy → Type} [FloatOps F]
variable (m : (ℓ : Loc nD τ sig) → Buf (Elt F) ℓ)

/-- The matrix argument. -/
abbrev matA (c : Dev nD) : Vec F S10000x10000 .f32 := m ((c : Thread nD τ).loc main_arg0)
/-- The features argument. -/
abbrev featX (c : Dev nD) : Vec F S10000x16x4 .f32 := m ((c : Thread nD τ).loc main_arg1)
/-- The weights argument. -/
abbrev wtW (c : Dev nD) : Vec F S4x16x16 .f32 := m ((c : Thread nD τ).loc main_arg2)

/-! ## The arrays at the region's entry -/

theorem entry_feats (c : Dev nD) :
    (V m c main_v0 : Vec F S10000x64 .f32) = shapeCast S10000x64 (featX m c) Facts₀.shapeCasts_S10000x16x4_S10000x64 := by
  show StableHlo.after hostOps0 (fun b => m (c, b)) (Proc.devRef .tc main_v0) = _
  after_results
  rfl

theorem entry_wts (c : Dev nD) :
    (V m c main_v2 : Vec F S64x16 .f32)
      = shapeCast S64x16 (transpose S16x4x16 [1, 0, 2] (wtW m c) Facts₀.transposes_S4x16x16_S16x4x16_1_0_2) Facts₀.shapeCasts_S16x4x16_S64x16 := by
  show StableHlo.after hostOps0 (fun b => m (c, b)) (Proc.devRef .tc main_v2) = _
  after_results
  rfl

theorem entry_top (c : Dev nD) :
    (V m c main_v3 : Vec F S5000x10000 .f32)
      = extractStridedSlice S5000x10000 ![0, 0] (matA m c) Facts₀.slices_S10000x10000_S5000x10000_0_0 := by
  show StableHlo.after hostOps0 (fun b => m (c, b)) (Proc.devRef .tc main_v3) = _
  after_results

theorem entry_bot (c : Dev nD) :
    (V m c main_v4 : Vec F S5000x10000 .f32)
      = extractStridedSlice S5000x10000 ![5000, 0] (matA m c) Facts₀.slices_S10000x10000_S5000x10000_5000_0 := by
  show StableHlo.after hostOps0 (fun b => m (c, b)) (Proc.devRef .tc main_v4) = _
  after_results

/-! ## The block indices, decided over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := lt_of_lt_of_eq t.isLt N_0

/-- Row p of point t's slab, as a row of the upper half (and of the whole matrix). -/
abbrev rowTop (t : Fin cfg0.N) (p : Fin 200) : Fin 10000 :=
  ⟨200 * t.val + p.val, by have := point_lt t; have := p.isLt; omega⟩
/-- Row p of point t's slab of the lower half, as a row of the whole matrix. -/
abbrev rowBot (t : Fin cfg0.N) (p : Fin 200) : Fin 10000 :=
  ⟨5000 + (200 * t.val + p.val), by have := point_lt t; have := p.isLt; omega⟩

/-! ## The blocks, read at an index -/

theorem slabTop_at (c : Dev nD) (t : Fin cfg0.N) (p : Fin 200) (k : Fin 10000) :
    slabTop m c t (ix2 p k) = matA m c (ix2 (rowTop t p) k) := by
  obtain ⟨e0, e1, -⟩ := idx_facts t
  show iblk m c 0 t (ix2 p k) = _
  unfold iblk
  rw [View.read_apply]
  show V m c main_v3 (((cfg0.win 0).blk t).view.emb (ix2 p k)) = _
  rw [entry_top]
  refine extractStridedSlice_apply ![0, 0] (matA m c) Facts₀.slices_S10000x10000_S5000x10000_0_0 _ (ix2 (rowTop t p) k) ?_
  intro a
  match a with
  | ⟨0, _⟩ => show 200 * t.val + p.val = 0 + (win0_0.index t (0 : Fin 2) * 200 + 1 * p.val); rw [e0]; omega
  | ⟨1, _⟩ => show k.val = 0 + (win0_0.index t (1 : Fin 2) * 10000 + 1 * k.val); rw [e1]; omega

theorem slabBot_at (c : Dev nD) (t : Fin cfg0.N) (p : Fin 200) (k : Fin 10000) :
    slabBot m c t (ix2 p k) = matA m c (ix2 (rowBot t p) k) := by
  obtain ⟨-, -, e0, e1, -⟩ := idx_facts t
  show iblk m c 1 t (ix2 p k) = _
  unfold iblk
  rw [View.read_apply]
  show V m c main_v4 (((cfg0.win 1).blk t).view.emb (ix2 p k)) = _
  rw [entry_bot]
  refine extractStridedSlice_apply ![5000, 0] (matA m c) Facts₀.slices_S10000x10000_S5000x10000_5000_0 _ (ix2 (rowBot t p) k) ?_
  intro a
  match a with
  | ⟨0, _⟩ => show 5000 + (200 * t.val + p.val) = 5000 + (win0_1.index t (0 : Fin 2) * 200 + 1 * p.val); rw [e0]; omega
  | ⟨1, _⟩ => show k.val = 0 + (win0_1.index t (1 : Fin 2) * 10000 + 1 * k.val); rw [e1]; omega

/-- The flattened features: column j = 4 i + r of row k is x[k, i, r]. -/
theorem feats_at (c : Dev nD) (k : Fin 10000) (j : Fin 64) :
    feats m c (ix2 k j) = featX m c (ix3 k (hi4 j) (lo4 j)) := by
  obtain ⟨-, -, -, -, e0, e1, -⟩ := idx_facts (first)
  show iblk m c 2 first (ix2 k j) = _
  unfold iblk
  rw [View.read_apply]
  show V m c main_v0 (((cfg0.win 2).blk first).view.emb (ix2 k j)) = _
  rw [entry_feats]
  exact shapeCast_apply (featX m c) Facts₀.shapeCasts_S10000x16x4_S10000x64 _ (ix3 k (hi4 j) (lo4 j)) (by
    rewrite [Shape.rowMajor_val_three, Shape.rowMajor_val_two]
    show (k.val * 16 + j.val / 4) * 4 + j.val % 4
      = (win0_2.index first (0 : Fin 2) * 10000 + 1 * k.val) * 64 + (win0_2.index first (1 : Fin 2) * 64 + 1 * j.val)
    rw [e0, e1]; omega)

/-- The permuted weights: row j = 4 i + r, column o, is w[r, i, o]. -/
theorem wts_at (c : Dev nD) (j : Fin 64) (o : Fin 16) :
    wts m c (ix2 j o) = wtW m c (ix3 (lo4 j) (hi4 j) o) := by
  obtain ⟨-, -, -, -, -, -, e0, e1, -⟩ := idx_facts (first)
  show iblk m c 3 first (ix2 j o) = _
  unfold iblk
  rw [View.read_apply]
  show V m c main_v2 (((cfg0.win 3).blk first).view.emb (ix2 j o)) = _
  rw [entry_wts]
  refine (shapeCast_apply _ Facts₀.shapeCasts_S16x4x16_S64x16 _ (ix3 (hi4 j) (lo4 j) o) (by
    rewrite [Shape.rowMajor_val_three, Shape.rowMajor_val_two]
    show (j.val / 4 * 4 + j.val % 4) * 16 + o.val
      = (win0_3.index first (0 : Fin 2) * 64 + 1 * j.val) * 16 + (win0_3.index first (1 : Fin 2) * 16 + 1 * o.val)
    rw [e0, e1]; omega)).trans ?_
  exact transpose_apply [1, 0, 2] (wtW m c) Facts₀.transposes_S4x16x16_S16x4x16_1_0_2 (ix3 (hi4 j) (lo4 j) o) (ix3 (lo4 j) (hi4 j) o)
    (fun b => by
      match b with
      | ⟨0, _⟩ => rfl
      | ⟨1, _⟩ => rfl
      | ⟨2, _⟩ => rfl)

end Cert.KernelIdeal.Blocks

end
-- ==== Proof.Products.lean ====
/-
  The body's three stored values, read at an index over the extended reals.

  Each is a matrix product into a zero accumulator, so at the exact instance its entry (p, o) is the plain sum
  over the contracted position k of left[p, k] * right[k, o]: the accumulator's zero word is the real 0, and the
  contraction has one axis whose position is the one coordinate of the contraction index.
-/
import proofs.«130375_g5995774345542_cont_9to1_m_477_7_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Products

open Cert.KernelIdeal Cert.KernelIdeal.Gen Idealize.ShloMosaic.ValueIdx

/-! ## The operand indices of the two contractions, axis by axis -/

theorem mix_l0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem mix_l1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
theorem mix_r0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
theorem mix_r1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

theorem agg_l0 (i : S200x16.Idx) (q : dot_S200x10000_S10000x16_S200x16_1_0_0_1_n_n.contr.Idx) :
    (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem agg_l1 (i : S200x16.Idx) (q : dot_S200x10000_S10000x16_S200x16_1_0_0_1_n_n.contr.Idx) :
    (dot_S200x10000_S10000x16_S200x16_1_0_0_1_n_n.lhsIdx i q 1).val = (q ⟨0, by decide⟩).val :=
  dot_S200x10000_S10000x16_S200x16_1_0_0_1_n_n.lhsIdx_val_of_single rfl i q
theorem agg_r0 (i : S200x16.Idx) (q : dot_S200x10000_S10000x16_S200x16_1_0_0_1_n_n.contr.Idx) :
    (dot_S200x10000_S10000x16_S200x16_1_0_0_1_n_n.rhsIdx i q 0).val = (q ⟨0, by decide⟩).val :=
  dot_S200x10000_S10000x16_S200x16_1_0_0_1_n_n.rhsIdx_val_of_single rfl i q
theorem agg_r1 (i : S200x16.Idx) (q : dot_S200x10000_S10000x16_S200x16_1_0_0_1_n_n.contr.Idx) :
    (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-! ## The three products -/

/-- Features times weights: entry (p, o) is the sum over the 64 columns. -/
theorem mixed_at (X : Vec Ideal S10000x64 .f32) (W : Vec Ideal S64x16 .f32) (p : Fin 10000) (o : Fin 16) :
    k0_pay1 (F := Ideal) X W (ix2 p o) = ∑ k : Fin 64, X (ix2 p k) * W (ix2 k o) := by
  unfold k0_pay1
  simp only [shapeCast_self]
  refine (Ideal.matmul_constant_zero_apply dot_S10000x64_S64x16_S10000x16_1_0_0_1_n_n none _ _ (ix2 p o)).trans ?_
  rw [← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  have el : dot_S10000x64_S64x16_S10000x16_1_0_0_1_n_n.lhsIdx (ix2 p o) ((ValueIdx.contrEquiv1 dot_S10000x64_S64x16_S10000x16_1_0_0_1_n_n 64 rfl rfl).symm k) = ix2 p k := funext fun a => Fin.ext (by
    match a with
    | ⟨0, _⟩ => exact mix_l0 _ _
    | ⟨1, _⟩ => exact (mix_l1 _ _).trans hk)
  have er : dot_S10000x64_S64x16_S10000x16_1_0_0_1_n_n.rhsIdx (ix2 p o) ((ValueIdx.contrEquiv1 dot_S10000x64_S64x16_S10000x16_1_0_0_1_n_n 64 rfl rfl).symm k) = ix2 k o := funext fun a => Fin.ext (by
    match a with
    | ⟨0, _⟩ => exact (mix_r0 _ _).trans hk
    | ⟨1, _⟩ => exact mix_r1 _ _)
  rw [el, er]

/-- A row slab times the mixed features, into the first output block. -/
theorem top_at (B : Vec Ideal S10000x16 .f32) (A : Vec Ideal S200x10000 .f32) (p : Fin 200) (o : Fin 16) :
    k0_pay2 (F := Ideal) B A (ix2 p o) = ∑ k : Fin 10000, A (ix2 p k) * B (ix2 k o) := by
  unfold k0_pay2
  simp only [shapeCast_self]
  refine (Ideal.matmul_constant_zero_apply dot_S200x10000_S10000x16_S200x16_1_0_0_1_n_n none _ _ (ix2 p o)).trans ?_
  rw [← Equiv.sum_comp (ValueIdx.contrEquiv1 dot_S200x10000_S10000x16_S200x16_1_0_0_1_n_n 10000 rfl rfl).symm]
  refine Finset.sum_congr rfl fun k _ => ?_
  have hk := ValueIdx.contrEquiv1_symm_val dot_S200x10000_S10000x16_S200x16_1_0_0_1_n_n 10000 rfl rfl k
  have el : dot_S200x10000_S10000x16_S200x16_1_0_0_1_n_n.lhsIdx (ix2 p o) ((ValueIdx.contrEquiv1 dot_S200x10000_S10000x16_S200x16_1_0_0_1_n_n 10000 rfl rfl).symm k) = ix2 p k := funext fun a => Fin.ext (by
    match a with
    | ⟨0, _⟩ => exact agg_l0 _ _
    | ⟨1, _⟩ => exact (agg_l1 _ _).trans hk)
  have er : dot_S200x10000_S10000x16_S200x16_1_0_0_1_n_n.rhsIdx (ix2 p o) ((ValueIdx.contrEquiv1 dot_S200x10000_S10000x16_S200x16_1_0_0_1_n_n 10000 rfl rfl).symm k) = ix2 k o := funext fun a => Fin.ext (by
    match a with
    | ⟨0, _⟩ => exact (agg_r0 _ _).trans hk
    | ⟨1, _⟩ => exact agg_r1 _ _)
  rw [el, er]

/-- A row slab times the mixed features, into the second output block. -/
theorem bottom_at (B : Vec Ideal S10000x16 .f32) (A : Vec Ideal S200x10000 .f32) (p : Fin 200) (o : Fin 16) :
    k0_pay3 (F := Ideal) B A (ix2 p o) = ∑ k : Fin 10000, A (ix2 p k) * B (ix2 k o) := by
  unfold k0_pay3
  simp only [shapeCast_self]
  refine (Ideal.matmul_constant_zero_apply dot_S200x10000_S10000x16_S200x16_1_0_0_1_n_n none _ _ (ix2 p o)).trans ?_
  rw [← Equiv.sum_comp (ValueIdx.contrEquiv1 dot_S200x10000_S10000x16_S200x16_1_0_0_1_n_n 10000 rfl rfl).symm]
  refine Finset.sum_congr rfl fun k _ => ?_
  have hk := ValueIdx.contrEquiv1_symm_val dot_S200x10000_S10000x16_S200x16_1_0_0_1_n_n 10000 rfl rfl k
  have el : dot_S200x10000_S10000x16_S200x16_1_0_0_1_n_n.lhsIdx (ix2 p o) ((ValueIdx.contrEquiv1 dot_S200x10000_S10000x16_S200x16_1_0_0_1_n_n 10000 rfl rfl).symm k) = ix2 p k := funext fun a => Fin.ext (by
    match a with
    | ⟨0, _⟩ => exact agg_l0 _ _
    | ⟨1, _⟩ => exact (agg_l1 _ _).trans hk)
  have er : dot_S200x10000_S10000x16_S200x16_1_0_0_1_n_n.rhsIdx (ix2 p o) ((ValueIdx.contrEquiv1 dot_S200x10000_S10000x16_S200x16_1_0_0_1_n_n 10000 rfl rfl).symm k) = ix2 k o := funext fun a => Fin.ext (by
    match a with
    | ⟨0, _⟩ => exact (agg_r0 _ _).trans hk
    | ⟨1, _⟩ => exact agg_r1 _ _)
  rw [el, er]

end Cert.KernelIdeal.Products

end
-- ==== Proof.KernelValue.lean ====
/-
  What the kernel's result array holds after the run, over the extended reals.

  Point t leaves in its two output blocks the products of rows 200 t .. 200 t + 199 of the upper and of the lower
  half of the matrix with the mixed features B[k, o] = sum_j x[k, j / 4, j % 4] * w[j % 4, j / 4, o]; the blocks
  of the 25 points tile the two [5000, 16] outputs, so output row n of the upper one is row n of a * B and of the
  lower one row 5000 + n; the host then stacks the two. Entry (n, o) of the result is sum_k a[n, k] * B[k, o].
-/
import proofs.«130375_g5995774345542_cont_9to1_m_477_7_alg».proof.Proof.Blocks
import proofs.«130375_g5995774345542_cont_9to1_m_477_7_alg».proof.Proof.Products

noncomputable section

open Idealize.ShloMosaic Idealize.ShloMosaic.TcCoe Idealize.SL.Sem

namespace Cert.KernelIdeal.Result

open Cert.KernelIdeal Cert.KernelIdeal.Gen Cert.KernelIdeal.Carried Cert.KernelIdeal.Blocks Idealize.ShloMosaic.ValueIdx Cert.Rgcn
open Idealize.ShloMosaic.Pipeline (Dat)

variable (m : (ℓ : Loc nD τ sig) → Buf (Elt Ideal) ℓ) (ρ : Dev nD → PrngReg)

/-- The matrix, the features and the weights by their coordinates. -/
abbrev aOf (c : Dev nD) : Fin 10000 → Fin 10000 → EReal := fun n k => matA m c (ix2 n k)
abbrev xOf (c : Dev nD) : Fin 10000 → Fin 16 → Fin 4 → EReal := fun k i r => featX m c (ix3 k i r)
abbrev wOf (c : Dev nD) : Fin 4 → Fin 16 → Fin 16 → EReal := fun r i o => wtW m c (ix3 r i o)

/-- The scratch holds the features mixed with the weights. -/
theorem mixed_eq (c : Dev nD) (k : Fin 10000) (o : Fin 16) :
    mixedFeats m c (ix2 k o) = mixed (xOf m c) (wOf m c) k o := by
  refine (Products.mixed_at (feats m c) (wts m c) k o).trans ?_
  unfold mixed
  exact Finset.sum_congr rfl fun j _ => by rw [feats_at, wts_at]

/-- Point t's first output block, entry (p, o): row 200 t + p of the matrix against the mixed features. -/
theorem top_eq (c : Dev nD) (t : Fin cfg0.N) (p : Fin 200) (o : Fin 16) :
    k0_pay2 (mixedFeats m c) (slabTop m c t) (ix2 p o) = mixFirst (aOf m c) (xOf m c) (wOf m c) (rowTop t p) o := by
  refine (Products.top_at _ _ p o).trans ?_
  unfold mixFirst
  exact Finset.sum_congr rfl fun k _ => by rw [slabTop_at, mixed_eq]

theorem top_block (c : Dev nD) (t : Fin cfg0.N) (y : S200x16.Idx) :
    k0_pay2 (mixedFeats m c) (slabTop m c t) y = mixFirst (aOf m c) (xOf m c) (wOf m c) (rowTop t (y 0)) (y 1) := by
  obtain ⟨p, o, rfl⟩ : ∃ (p : Fin 200) (o : Fin 16), y = ix2 p o := ⟨y 0, y 1, eq_ix2 y⟩
  exact top_eq m c t p o

/-- Point t's second output block, entry (p, o): row 5000 + 200 t + p of the matrix against the mixed features. -/
theorem bottom_eq (c : Dev nD) (t : Fin cfg0.N) (p : Fin 200) (o : Fin 16) :
    k0_pay3 (mixedFeats m c) (slabBot m c t) (ix2 p o) = mixFirst (aOf m c) (xOf m c) (wOf m c) (rowBot t p) o := by
  refine (Products.bottom_at _ _ p o).trans ?_
  unfold mixFirst
  exact Finset.sum_congr rfl fun k _ => by rw [slabBot_at, mixed_eq]

theorem bottom_block (c : Dev nD) (t : Fin cfg0.N) (y : S200x16.Idx) :
    k0_pay3 (mixedFeats m c) (slabBot m c t) y = mixFirst (aOf m c) (xOf m c) (wOf m c) (rowBot t (y 0)) (y 1) := by
  obtain ⟨p, o, rfl⟩ : ∃ (p : Fin 200) (o : Fin 16), y = ix2 p o := ⟨y 0, y 1, eq_ix2 y⟩
  exact bottom_eq m c t p o

/-! ## The two output arrays -/

/-- The upper output: rows 0 .. 4999 of the product. -/
abbrev outTop (c : Dev nD) : Vec Ideal S5000x16 .f32 := fun i =>
  mixFirst (aOf m c) (xOf m c) (wOf m c) ⟨(i 0).val, by have h : (i 0).val < 5000 := (i 0).isLt; omega⟩ (i 1)
/-- The lower output: rows 5000 .. 9999 of the product. -/
abbrev outBot (c : Dev nD) : Vec Ideal S5000x16 .f32 := fun i =>
  mixFirst (aOf m c) (xOf m c) (wOf m c) ⟨5000 + (i 0).val, by have h : (i 0).val < 5000 := (i 0).isLt; omega⟩ (i 1)

/-- What point t writes back to the upper output is its block of rows 200 t .. 200 t + 199. -/
theorem flushedTop (c : Dev nD) (t : Fin cfg0.N) :
    (dats m 0 c).flushed 4 t = ((cfg0.win 4).blk t).view.read (Elt Ideal) (outTop m c) := by
  obtain ⟨-, -, -, -, -, -, -, -, e0, e1, -⟩ := idx_facts t
  show (cfg0.win 4).cut (grid0.coords t) ((dats m 0 c).after 4 t) = _
  rw [after0_4, after_point m c t.val t.isLt]
  dsimp only
  funext y
  rw [View.read_apply]
  refine (top_block m c t y).trans ?_
  refine congrArg₂ (mixFirst (aOf m c) (xOf m c) (wOf m c)) (Fin.ext ?_) (Fin.ext ?_)
  · show 200 * t.val + (y 0).val = win0_4.index t (0 : Fin 2) * 200 + 1 * (y 0).val; rw [e0]; omega
  · show (y 1).val = win0_4.index t (1 : Fin 2) * 16 + 1 * (y 1).val; rw [e1]; omega

theorem flushedBot (c : Dev nD) (t : Fin cfg0.N) :
    (dats m 0 c).flushed 5 t = ((cfg0.win 5).blk t).view.read (Elt Ideal) (outBot m c) := by
  obtain ⟨-, -, -, -, -, -, -, -, -, -, e0, e1⟩ := idx_facts t
  show (cfg0.win 5).cut (grid0.coords t) ((dats m 0 c).after 5 t) = _
  rw [after0_5, after_point m c t.val t.isLt]
  dsimp only
  funext y
  rw [View.read_apply]
  refine (bottom_block m c t y).trans ?_
  refine congrArg₂ (mixFirst (aOf m c) (xOf m c) (wOf m c)) (Fin.ext ?_) (Fin.ext ?_)
  · show 5000 + (200 * t.val + (y 0).val) = 5000 + (win0_5.index t (0 : Fin 2) * 200 + 1 * (y 0).val); rw [e0]; omega
  · show (y 1).val = win0_5.index t (1 : Fin 2) * 16 + 1 * (y 1).val; rw [e1]; omega

/-- An index is in point t's block of an output iff each coordinate is in the block's range. -/
theorem mem_blkTop (t : Fin cfg0.N) (i : S5000x16.Idx) :
    i ∈ ((cfg0.win 4).blk t).view.set ↔ ∀ a : Fin 2, win0_4.index t a * S200x16.size a ≤ (i a).val ∧ (i a).val < win0_4.index t a * S200x16.size a + S200x16.size a := by
  show i ∈ ((View.whole main_v5_0).slice (win0_4.rect t)).set ↔ _
  rw [View.set_slice_whole, Rect.mem_set_unit]
  exact Iff.rfl

theorem mem_blkBot (t : Fin cfg0.N) (i : S5000x16.Idx) :
    i ∈ ((cfg0.win 5).blk t).view.set ↔ ∀ a : Fin 2, win0_5.index t a * S200x16.size a ≤ (i a).val ∧ (i a).val < win0_5.index t a * S200x16.size a + S200x16.size a := by
  show i ∈ ((View.whole main_v5_1).slice (win0_5.rect t)).set ↔ _
  rw [View.set_slice_whole, Rect.mem_set_unit]
  exact Iff.rfl

/-- Row n of an output is in the block of point n / 200. -/
theorem coverTop (i : S5000x16.Idx) : ∃ t : Fin cfg0.N, (cfg0.win 4).flush t = true ∧ i ∈ ((cfg0.win 4).blk t).view.set := by
  have h0 : (i 0).val < 5000 := (i 0).isLt
  have h1 : (i 1).val < 16 := (i 1).isLt
  have ht : (i 0).val / 200 < cfg0.N := by rw [show cfg0.N = 25 from N_0]; omega
  obtain ⟨-, -, -, -, -, -, -, -, e0, e1, -⟩ := idx_facts ⟨(i 0).val / 200, ht⟩
  have e0' : win0_4.index ⟨(i 0).val / 200, ht⟩ (0 : Fin 2) = (i 0).val / 200 := e0
  refine ⟨⟨(i 0).val / 200, ht⟩, flush0_4 _, ?_⟩
  rw [mem_blkTop]
  intro a
  match a with
  | ⟨0, _⟩ =>
    show win0_4.index ⟨(i 0).val / 200, ht⟩ (0 : Fin 2) * 200 ≤ (i 0).val ∧ (i 0).val < win0_4.index ⟨(i 0).val / 200, ht⟩ (0 : Fin 2) * 200 + 200
    rw [e0']; omega
  | ⟨1, _⟩ =>
    show win0_4.index ⟨(i 0).val / 200, ht⟩ (1 : Fin 2) * 16 ≤ (i 1).val ∧ (i 1).val < win0_4.index ⟨(i 0).val / 200, ht⟩ (1 : Fin 2) * 16 + 16
    rw [e1]; omega

theorem coverBot (i : S5000x16.Idx) : ∃ t : Fin cfg0.N, (cfg0.win 5).flush t = true ∧ i ∈ ((cfg0.win 5).blk t).view.set := by
  have h0 : (i 0).val < 5000 := (i 0).isLt
  have h1 : (i 1).val < 16 := (i 1).isLt
  have ht : (i 0).val / 200 < cfg0.N := by rw [show cfg0.N = 25 from N_0]; omega
  obtain ⟨-, -, -, -, -, -, -, -, -, -, e0, e1⟩ := idx_facts ⟨(i 0).val / 200, ht⟩
  have e0' : win0_5.index ⟨(i 0).val / 200, ht⟩ (0 : Fin 2) = (i 0).val / 200 := e0
  refine ⟨⟨(i 0).val / 200, ht⟩, flush0_5 _, ?_⟩
  rw [mem_blkBot]
  intro a
  match a with
  | ⟨0, _⟩ =>
    show win0_5.index ⟨(i 0).val / 200, ht⟩ (0 : Fin 2) * 200 ≤ (i 0).val ∧ (i 0).val < win0_5.index ⟨(i 0).val / 200, ht⟩ (0 : Fin 2) * 200 + 200
    rw [e0']; omega
  | ⟨1, _⟩ =>
    show win0_5.index ⟨(i 0).val / 200, ht⟩ (1 : Fin 2) * 16 ≤ (i 1).val ∧ (i 1).val < win0_5.index ⟨(i 0).val / 200, ht⟩ (1 : Fin 2) * 16 + 16
    rw [e1]; omega

/-- The two output arrays after the run. -/
theorem finalTop (c : Dev nD) : (dats m 0 c).arrAt 4 cfg0.N = outTop m c :=
  (dats m 0 c).arrAt_eq_of_cover 4 (outTop m c) (fun t _ => flushedTop m c t) coverTop

theorem finalBot (c : Dev nD) : (dats m 0 c).arrAt 5 cfg0.N = outBot m c :=
  (dats m 0 c).arrAt_eq_of_cover 5 (outBot m c) (fun t _ => flushedBot m c t) coverBot

/-! ## The stacked result -/

/-- The result: entry (n, o) is row n of the matrix against the mixed features. -/
abbrev result (c : Dev nD) : Vec Ideal S10000x16 .f32 := fun i => mixFirst (aOf m c) (xOf m c) (wOf m c) (i 0) (i 1)

/-- Stacking the upper and the lower output gives all 10000 rows. -/
theorem stacked (c : Dev nD) :
    concatenate S10000x16 0 [⟨S5000x16, outTop m c⟩, ⟨S5000x16, outBot m c⟩] Facts₀.concatenates_S5000x16_S5000x16_S10000x16_d0
      = result m c := by
  funext i
  have h0 : (i 0).val < 10000 := (i 0).isLt
  by_cases h : (i 0).val < 5000
  · refine (concatenate_pair_apply_left (0 : Fin 2) (outTop m c) (outBot m c) Facts₀.concatenates_S5000x16_S5000x16_S10000x16_d0 i rfl
      (ix2 ⟨(i 0).val, h⟩ (i 1)) (fun b => by
        match b with
        | ⟨0, _⟩ => rfl
        | ⟨1, _⟩ => rfl)).trans ?_
    rfl
  · refine (concatenate_pair_apply_right (0 : Fin 2) (outTop m c) (outBot m c) Facts₀.concatenates_S5000x16_S5000x16_S10000x16_d0 i rfl rfl
      (ix2 ⟨(i 0).val - 5000, by omega⟩ (i 1)) (fun b hb => by
        match b with
        | ⟨0, _⟩ => exact absurd rfl hb
        | ⟨1, _⟩ => rfl) (by show (i 0).val - 5000 + 5000 = (i 0).val; omega)).trans ?_
    exact congrArg₂ (mixFirst (aOf m c) (xOf m c) (wOf m c)) (Fin.ext (by show 5000 + ((i 0).val - 5000) = (i 0).val; omega)) rfl

/-- The host's last line, after the region: the result buffer holds the stacked outputs. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have e4 : Pipeline.withArrays (cfgs 0).spec c (V0 m c) (fun w => (dats m 0 c).arrAt w (cfgs 0).N) (Proc.devRef .tc main_v5_0)
      = outTop m c :=
    (Pipeline.withArrays_arr spec0 launch0.win.arr_inj c (V0 m c) (fun w => (dats m 0 c).arrAt w cfg0.N) 4).trans (finalTop m c)
  have e5 : Pipeline.withArrays (cfgs 0).spec c (V0 m c) (fun w => (dats m 0 c).arrAt w (cfgs 0).N) (Proc.devRef .tc main_v5_1)
      = outBot m c :=
    (Pipeline.withArrays_arr spec0 launch0.win.arr_inj c (V0 m c) (fun w => (dats m 0 c).arrAt w cfg0.N) 5).trans (finalBot m c)
  rw [e4, e5]
  exact stacked m c

/-- The run: every weakly fair execution ends with the result buffer at the product and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  What the reference computes, over the extended reals.

  For each relation r it multiplies the matrix with the feature slab x[:, :, r], joins the four [10000, 16]
  products side by side (column j = 16 r + i), and multiplies the joined [10000, 64] array with the weights
  flattened to [64, 16] (row j = 16 r + i is w[r, i, :]). Entry (n, o) of the result is
  sum_j (sum_k a[n, k] * x[k, j % 16, j / 16]) * w[j / 16, j % 16, o].
-/
import proofs.«130375_g5995774345542_cont_9to1_m_477_7_alg».proof.Proof.Gen.ReferenceIdeal.Run
import proofs.«130375_g5995774345542_cont_9to1_m_477_7_alg».proof.Proof.Gen.ReferenceIdeal.Read
import proofs.«130375_g5995774345542_cont_9to1_m_477_7_alg».proof.Proof.MatLaw
import Idealize.ShloMosaic.Lib.Pipeline.Value
import Idealize.ShloMosaic.Lib.ValueIdx

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.Rgcn

variable (x0 : (⟨S10000x10000, .f32⟩ : BufTy).Contents (Elt Ideal)) (x1 : (⟨S10000x16x4, .f32⟩ : BufTy).Contents (Elt Ideal)) (x2 : (⟨S4x16x16, .f32⟩ : BufTy).Contents (Elt Ideal))

/-- The matrix, the features and the weights by their coordinates. -/
abbrev aOf : Fin 10000 → Fin 10000 → EReal := fun n k => x0 (ix2 n k)
abbrev xOf : Fin 10000 → Fin 16 → Fin 4 → EReal := fun k i r => x1 (ix3 k i r)
abbrev wOf : Fin 4 → Fin 16 → Fin 16 → EReal := fun r i o => x2 (ix3 r i o)

/-- One relation's product: given the product V of the matrix with U, U the slab T with its unit axis dropped, and T
    the features at relation r, entry (n, i) of V is the sum over k of a[n, k] * x[k, i, r]. -/
theorem slab_read (r : Fin 4) (V U : (⟨S10000x16, .f32⟩ : BufTy).Contents (Elt Ideal)) (T : (⟨S10000x16x1, .f32⟩ : BufTy).Contents (Elt Ideal))
    (hV : ∀ i, V i = ∑ k : Fin 10000, x0 (lidx_main_v3 i k) * U (ridx_main_v3 i k))
    (hU : ∀ i, U i = T (idx_main_v2 i))
    (hT : ∀ (k : Fin 10000) (i : Fin 16), T (ix3 k i 0) = x1 (ix3 k i r))
    (n : Fin 10000) (i : Fin 16) : V (ix2 n i) = ∑ k : Fin 10000, x0 (ix2 n k) * x1 (ix3 k i r) := by
  rw [hV]
  refine Finset.sum_congr rfl fun k _ => ?_
  rw [hU]
  have e1 : lidx_main_v3 (ix2 n i) k = ix2 n k := funext fun a => by
    match a with
    | ⟨0, _⟩ => rfl
    | ⟨1, _⟩ => rfl
  have e2 : idx_main_v2 (ridx_main_v3 (ix2 n i) k) = ix3 k i 0 := funext fun a => Fin.ext (by
    have hi := i.isLt
    match a with
    | ⟨0, _⟩ => show (k.val * 16 + i.val) / 16 = k.val; omega
    | ⟨1, _⟩ => show (k.val * 16 + i.val) / 1 % 16 = i.val; omega
    | ⟨2, _⟩ => rfl)
  rw [e1, e2, hT]

/-- The joined products: column j = 16 r + i of row n is the sum over k of a[n, k] * x[k, i, r]. -/
theorem joined_at (n : Fin 10000) (j : Fin 64) :
    val_main_v13 (F := Ideal) x0 x1 (ix2 n j) = slabs (aOf x0) (xOf x1) n j := by
  have hj := j.isLt
  unfold slabs val_main_v13
  obtain h | h | h | h : j.val / 16 = 0 ∨ j.val / 16 = 1 ∨ j.val / 16 = 2 ∨ j.val / 16 = 3 := by omega
  · refine (concatenate_apply_piece (t := S10000x64) (1 : Fin 2) [⟨S10000x16, val_main_v3 (F := Ideal) x0 x1⟩, ⟨S10000x16, val_main_v6 (F := Ideal) x0 x1⟩, ⟨S10000x16, val_main_v9 (F := Ideal) x0 x1⟩, ⟨S10000x16, val_main_v12 (F := Ideal) x0 x1⟩]
      Facts₀.concatenates_S10000x16_S10000x16_S10000x16_S10000x16_S10000x64_d1 (ix2 n j) 0 (by simp) S10000x16 (val_main_v3 (F := Ideal) x0 x1) rfl rfl 0 rfl
      (ix2 n (lo16 j)) (fun b hb => by
        match b with
        | ⟨0, _⟩ => rfl
        | ⟨1, _⟩ => exact absurd rfl hb) (by show 0 + j.val % 16 = j.val; omega)).trans ?_
    rw [show hi16 j = 0 from Fin.ext h]
    exact (slab_read x0 x1 0 (val_main_v3 (F := Ideal) x0 x1) (val_main_v2 (F := Ideal) x1) (val_main_v1 (F := Ideal) x1)
      (val_main_v3_apply x0 x1) (val_main_v2_apply x1)
      (fun k i => (val_main_v1_apply x1 _).trans (congrArg x1 (funext fun a => by
        match a with
        | ⟨0, _⟩ => rfl
        | ⟨1, _⟩ => rfl
        | ⟨2, _⟩ => exact Fin.ext rfl))) n (lo16 j))
  · refine (concatenate_apply_piece (t := S10000x64) (1 : Fin 2) [⟨S10000x16, val_main_v3 (F := Ideal) x0 x1⟩, ⟨S10000x16, val_main_v6 (F := Ideal) x0 x1⟩, ⟨S10000x16, val_main_v9 (F := Ideal) x0 x1⟩, ⟨S10000x16, val_main_v12 (F := Ideal) x0 x1⟩]
      Facts₀.concatenates_S10000x16_S10000x16_S10000x16_S10000x16_S10000x64_d1 (ix2 n j) 1 (by simp) S10000x16 (val_main_v6 (F := Ideal) x0 x1) rfl rfl 16 rfl
      (ix2 n (lo16 j)) (fun b hb => by
        match b with
        | ⟨0, _⟩ => rfl
        | ⟨1, _⟩ => exact absurd rfl hb) (by show 16 + j.val % 16 = j.val; omega)).trans ?_
    rw [show hi16 j = 1 from Fin.ext h]
    exact (slab_read x0 x1 1 (val_main_v6 (F := Ideal) x0 x1) (val_main_v5 (F := Ideal) x1) (val_main_v4 (F := Ideal) x1)
      (val_main_v6_apply x0 x1) (val_main_v5_apply x1)
      (fun k i => (val_main_v4_apply x1 _).trans (congrArg x1 (funext fun a => by
        match a with
        | ⟨0, _⟩ => rfl
        | ⟨1, _⟩ => rfl
        | ⟨2, _⟩ => exact Fin.ext rfl))) n (lo16 j))
  · refine (concatenate_apply_piece (t := S10000x64) (1 : Fin 2) [⟨S10000x16, val_main_v3 (F := Ideal) x0 x1⟩, ⟨S10000x16, val_main_v6 (F := Ideal) x0 x1⟩, ⟨S10000x16, val_main_v9 (F := Ideal) x0 x1⟩, ⟨S10000x16, val_main_v12 (F := Ideal) x0 x1⟩]
      Facts₀.concatenates_S10000x16_S10000x16_S10000x16_S10000x16_S10000x64_d1 (ix2 n j) 2 (by simp) S10000x16 (val_main_v9 (F := Ideal) x0 x1) rfl rfl 32 rfl
      (ix2 n (lo16 j)) (fun b hb => by
        match b with
        | ⟨0, _⟩ => rfl
        | ⟨1, _⟩ => exact absurd rfl hb) (by show 32 + j.val % 16 = j.val; omega)).trans ?_
    rw [show hi16 j = 2 from Fin.ext h]
    exact (slab_read x0 x1 2 (val_main_v9 (F := Ideal) x0 x1) (val_main_v8 (F := Ideal) x1) (val_main_v7 (F := Ideal) x1)
      (val_main_v9_apply x0 x1) (val_main_v8_apply x1)
      (fun k i => (val_main_v7_apply x1 _).trans (congrArg x1 (funext fun a => by
        match a with
        | ⟨0, _⟩ => rfl
        | ⟨1, _⟩ => rfl
        | ⟨2, _⟩ => exact Fin.ext rfl))) n (lo16 j))
  · refine (concatenate_apply_piece (t := S10000x64) (1 : Fin 2) [⟨S10000x16, val_main_v3 (F := Ideal) x0 x1⟩, ⟨S10000x16, val_main_v6 (F := Ideal) x0 x1⟩, ⟨S10000x16, val_main_v9 (F := Ideal) x0 x1⟩, ⟨S10000x16, val_main_v12 (F := Ideal) x0 x1⟩]
      Facts₀.concatenates_S10000x16_S10000x16_S10000x16_S10000x16_S10000x64_d1 (ix2 n j) 3 (by simp) S10000x16 (val_main_v12 (F := Ideal) x0 x1) rfl rfl 48 rfl
      (ix2 n (lo16 j)) (fun b hb => by
        match b with
        | ⟨0, _⟩ => rfl
        | ⟨1, _⟩ => exact absurd rfl hb) (by show 48 + j.val % 16 = j.val; omega)).trans ?_
    rw [show hi16 j = 3 from Fin.ext h]
    exact (slab_read x0 x1 3 (val_main_v12 (F := Ideal) x0 x1) (val_main_v11 (F := Ideal) x1) (val_main_v10 (F := Ideal) x1)
      (val_main_v12_apply x0 x1) (val_main_v11_apply x1)
      (fun k i => (val_main_v10_apply x1 _).trans (congrArg x1 (funext fun a => by
        match a with
        | ⟨0, _⟩ => rfl
        | ⟨1, _⟩ => rfl
        | ⟨2, _⟩ => exact Fin.ext rfl))) n (lo16 j))

/-- The reference's result, entry (n, o): the joined products against the flattened weights. -/
theorem result_at (n : Fin 10000) (o : Fin 16) :
    val_main_v14 (F := Ideal) x0 x1 x2 (ix2 n o) = mixLast (aOf x0) (xOf x1) (wOf x2) n o := by
  rw [val_main_v14_apply]
  unfold mixLast
  refine Finset.sum_congr rfl fun j _ => ?_
  have e1 : lidx_main_v14 (ix2 n o) j = ix2 n j := funext fun a => by
    match a with
    | ⟨0, _⟩ => rfl
    | ⟨1, _⟩ => rfl
  have e2 : idx_main_v0 (ridx_main_v14 (ix2 n o) j) = ix3 (hi16 j) (lo16 j) o := funext fun a => Fin.ext (by
    have hj := j.isLt
    have ho := o.isLt
    match a with
    | ⟨0, _⟩ => show (j.val * 16 + o.val) / 256 = j.val / 16; omega
    | ⟨1, _⟩ => show (j.val * 16 + o.val) / 16 % 16 = j.val % 16; omega
    | ⟨2, _⟩ => show (j.val * 16 + o.val) % 16 = o.val; omega)
  rw [e1, joined_at, val_main_v0_apply, e2]

end Cert.ReferenceIdeal.RefValue

end
-- ==== Proof.Finite.lean ====
/-
  The precondition read: every entry of the three inputs is a real number.

  The printed precondition is the conjunction, over the three inputs, of "every entry's absolute value is below
  +infinity". An extended real whose absolute value max(v, -v) is below the top element is neither infinity.
-/
import proofs.«130375_g5995774345542_cont_9to1_m_477_7_alg».proof.Proof.Gen.Pre_finite_inputs
import Idealize.ShloMosaic.PureOps.Ideal
import Idealize.ShloMosaic.Lib.ReduceAll
import Idealize.ShloMosaic.Lib.ValueIdx

noncomputable section

open Idealize.ShloMosaic Idealize.ShloMosaic.TcCoe Idealize.SL.Sem

namespace Cert.Pre_finite_inputs.Finite

open Cert.Pre_finite_inputs

instance : Subsingleton S_.Idx := ⟨fun a b => funext fun d => d.elim0⟩

/-- An extended real whose absolute value is below +infinity is a real number. -/
theorem real_of_abs_lt_top (v : EReal)
    (h : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at h
  have h' : max v (-v) < ⊤ := by
    change BitVec.ofBool (decide (max v (-v) < ⊤)) = 1#1 at h
    by_contra hn
    rw [decide_eq_false hn] at h
    exact absurd h (by decide)
  induction v using EReal.rec with
  | bot => simp at h'
  | coe r => exact ⟨r, rfl⟩
  | top => simp at h'

/-- Under the precondition the three inputs hold real numbers only. -/
theorem reals_of_pre (a : FVec Ideal S10000x10000 .f32) (x : FVec Ideal S10000x16x4 .f32) (w : FVec Ideal S4x16x16 .f32)
    (h : fn (F := Ideal) a x w = fun _ => 1#1) :
    (∀ i, ∃ r : ℝ, a i = r) ∧ (∀ i, ∃ r : ℝ, x i = r) ∧ (∀ i, ∃ r : ℝ, w i = r) := by
  have h0 := congrFun h ValueIdx.ix0
  dsimp only [fn] at h0
  unfold andi at h0
  rw [IntOp.andi_eq_one, IntOp.andi_eq_one] at h0
  obtain ⟨⟨ha, hx⟩, hw⟩ := h0
  refine ⟨fun i => ?_, fun i => ?_, fun i => ?_⟩
  · exact real_of_abs_lt_top _ (Host.reduce_andi_all _ _ _ _ _ ha i)
  · exact real_of_abs_lt_top _ (Host.reduce_andi_all _ _ _ _ _ hx i)
  · exact real_of_abs_lt_top _ (Host.reduce_andi_all _ _ _ _ _ hw i)

end Cert.Pre_finite_inputs.Finite

end
-- ==== Proof.lean ====
/-
  A relational graph convolution, out = concat_r (a @ x[:, :, r]) @ w.reshape(64, 16), against a kernel that uses
  associativity to read the matrix a once: it first mixes the features with the weights,
  B = x.reshape(N, 64) @ w.transpose(1, 0, 2).reshape(64, 16), keeps B in a scratch buffer across the grid, and then
  streams 200-row slabs of the upper and the lower half of a against B.

  Over the extended reals both programs compute, at entry (n, o), the triple sum over (k, i, r) of
  a[n, k] * x[k, i, r] * w[r, i, o]; the kernel with a[n, k] outside the sum over (i, r), the reference with
  w[r, i, o] outside the sum over k. Exchanging them is distributivity, which needs the entries finite: that is
  what the precondition gives. The kernel's frame is the generated one; its result array is read off that frame's
  run (the scratch after every point holds B, by induction on the point; the output blocks tile the two halves;
  the host stacks them), the reference's off its generated run, one operation at a time.
-/
import proofs.«130375_g5995774345542_cont_9to1_m_477_7_alg».proof.Defs
import proofs.«130375_g5995774345542_cont_9to1_m_477_7_alg».proof.Proof.Gen.Kernel
import proofs.«130375_g5995774345542_cont_9to1_m_477_7_alg».proof.Proof.Gen.Kernel.Frame
import proofs.«130375_g5995774345542_cont_9to1_m_477_7_alg».proof.Proof.Gen.KernelIdeal
import proofs.«130375_g5995774345542_cont_9to1_m_477_7_alg».proof.Proof.Gen.KernelIdeal.Frame
import proofs.«130375_g5995774345542_cont_9to1_m_477_7_alg».proof.Proof.Gen.ReferenceIdeal
import proofs.«130375_g5995774345542_cont_9to1_m_477_7_alg».proof.Proof.Gen.ReferenceIdeal.Run
import proofs.«130375_g5995774345542_cont_9to1_m_477_7_alg».proof.Proof.Gen.ReferenceIdeal.Read
import proofs.«130375_g5995774345542_cont_9to1_m_477_7_alg».proof.Proof.Gen.Pre_finite_inputs
import proofs.«130375_g5995774345542_cont_9to1_m_477_7_alg».proof.Proof.KernelValue
import proofs.«130375_g5995774345542_cont_9to1_m_477_7_alg».proof.Proof.RefValue
import proofs.«130375_g5995774345542_cont_9to1_m_477_7_alg».proof.Proof.Finite
import Idealize.ShloMosaic.Adequacy
import Idealize.ShloMosaic.Init

noncomputable section

namespace Cert.Proof

open Idealize.ShloMosaic Idealize.ShloMosaic.ValueIdx Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_ideal : Cert.frame_KernelIdeal (hKernelIdeal := Cert.KernelIdeal.Gen.facts) (hPre_finite_inputs := Cert.Pre_finite_inputs.Gen.facts) :=
  fun m ρ _ => Cert.KernelIdeal.Gen.frame m ρ

theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same [10000, 16] array: the two contraction orders agree on real entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨ha, hx, hw⟩ := Cert.Pre_finite_inputs.Finite.reals_of_pre _ _ _ (hpre c)
  funext i
  obtain ⟨n, o, rfl⟩ : ∃ (n : Fin 10000) (o : Fin 16), i = ix2 n o := ⟨i 0, i 1, eq_ix2 i⟩
  rw [Cert.ReferenceIdeal.RefValue.result_at]
  exact (Cert.Rgcn.mixFirst_eq_mixLast (Cert.KernelIdeal.Result.aOf m c) (Cert.KernelIdeal.Result.xOf m c) (Cert.KernelIdeal.Result.wOf m c)
    (fun n k => ha (ix2 n k)) (fun k i r => hx (ix3 k i r)) (fun r i o => hw (ix3 r i o)) n o).symm

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
